-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v24)) (v6 : (c : Dev Cert.KernelIdeal.nD) → Buf (Elt Ideal) ((c.tc : Thread Cert.KernelIdeal.nD Cert.KernelIdeal.τ).loc Cert.KernelIdeal.main_v28)) (v7 : (c : Dev Cert.KernelIdeal.nD) → Buf (Elt Ideal) ((c.tc : Thread Cert.KernelIdeal.nD Cert.KernelIdeal.τ).loc Cert.KernelIdeal.main_v34)) (v8 : (c : Dev Cert.KernelIdeal.nD) → Buf (Elt Ideal) ((c.tc : Thread Cert.KernelIdeal.nD Cert.KernelIdeal.τ).loc Cert.KernelIdeal.main_v38)) (v9 : (c : Dev Cert.KernelIdeal.nD) → Buf (Elt Ideal) ((c.tc : Thread Cert.KernelIdeal.nD Cert.KernelIdeal.τ).loc Cert.KernelIdeal.main_v44)) (v10 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v24) = v5 c
          ∧ r.2.mem ((c.tc : Thread Cert.KernelIdeal.nD Cert.KernelIdeal.τ).loc Cert.KernelIdeal.main_v28) = v6 c
          ∧ r.2.mem ((c.tc : Thread Cert.KernelIdeal.nD Cert.KernelIdeal.τ).loc Cert.KernelIdeal.main_v34) = v7 c
          ∧ r.2.mem ((c.tc : Thread Cert.KernelIdeal.nD Cert.KernelIdeal.τ).loc Cert.KernelIdeal.main_v38) = v8 c
          ∧ r.2.mem ((c.tc : Thread Cert.KernelIdeal.nD Cert.KernelIdeal.τ).loc Cert.KernelIdeal.main_v44) = v9 c
          ∧ r.2.mem ((c.tc : Thread Cert.KernelIdeal.nD Cert.KernelIdeal.τ).loc Cert.KernelIdeal.main_v48) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_v30) = v6 c
          ∧ r.2.mem ((c.tc : Thread Cert.ReferenceIdeal.nD Cert.ReferenceIdeal.τ).loc Cert.ReferenceIdeal.main_v36) = v7 c
          ∧ r.2.mem ((c.tc : Thread Cert.ReferenceIdeal.nD Cert.ReferenceIdeal.τ).loc Cert.ReferenceIdeal.main_v40) = v8 c
          ∧ r.2.mem ((c.tc : Thread Cert.ReferenceIdeal.nD Cert.ReferenceIdeal.τ).loc Cert.ReferenceIdeal.main_v46) = v9 c
          ∧ r.2.mem ((c.tc : Thread Cert.ReferenceIdeal.nD Cert.ReferenceIdeal.τ).loc Cert.ReferenceIdeal.main_v50) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S64x256 : Shape := ⟨2, ![64, 256]⟩
abbrev S8x128x56x56 : Shape := ⟨4, ![8, 128, 56, 56]⟩
abbrev S8x128 : Shape := ⟨2, ![8, 128]⟩
abbrev S8x128x56 : Shape := ⟨3, ![8, 128, 56]⟩
abbrev S_ : Shape := ⟨0, ![]⟩
abbrev S256 : Shape := ⟨1, ![256]⟩
abbrev S64x128x2 : Shape := ⟨3, ![64, 128, 2]⟩
abbrev S64x128 : Shape := ⟨2, ![64, 128]⟩
abbrev S64x64x2 : Shape := ⟨3, ![64, 64, 2]⟩
abbrev S64x64 : Shape := ⟨2, ![64, 64]⟩
abbrev S64x32x2 : Shape := ⟨3, ![64, 32, 2]⟩
abbrev S64x32 : Shape := ⟨2, ![64, 32]⟩
abbrev S64x16x2 : Shape := ⟨3, ![64, 16, 2]⟩
abbrev S64x16 : Shape := ⟨2, ![64, 16]⟩

abbrev nBuf : Space → Nat
  | .hbm => 71
  | .vmem => 6
  | .smem => 0
  | _ => 0

abbrev bufTy : (tb : Table) → Fin (tcTables nBuf tb) → BufTy
  | .hbm, ⟨0, _⟩ => ⟨S64x256x56x56, .f32⟩
  | .hbm, ⟨1, _⟩ => ⟨S64x256, .f32⟩
  | .hbm, ⟨2, _⟩ => ⟨S64x256, .f32⟩
  | .hbm, ⟨3, _⟩ => ⟨S_, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S64x128x2, .f32⟩
  | .hbm, ⟨16, _⟩ => ⟨S_, .f32⟩
  | .hbm, ⟨17, _⟩ => ⟨S64x128, .f32⟩
  | .hbm, ⟨18, _⟩ => ⟨S64x128x2, .f32⟩
  | .hbm, ⟨19, _⟩ => ⟨S_, .f32⟩
  | .hbm, ⟨20, _⟩ => ⟨S64x128, .f32⟩
  | .hbm, ⟨21, _⟩ => ⟨S_, .f32⟩
  | .hbm, ⟨22, _⟩ => ⟨S64x128, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S64x128, .f32⟩
  | .hbm, ⟨28, _⟩ => ⟨S64x128, .f32⟩
  | .hbm, ⟨29, _⟩ => ⟨S64x64x2, .f32⟩
  | .hbm, ⟨30, _⟩ => ⟨S_, .f32⟩
  | .hbm, ⟨31, _⟩ => ⟨S64x64, .f32⟩
  | .hbm, ⟨32, _⟩ => ⟨S64x64x2, .f32⟩
  | .hbm, ⟨33, _⟩ => ⟨S_, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x32x2, .f32⟩
  | .hbm, ⟨44, _⟩ => ⟨S_, .f32⟩
  | .hbm, ⟨45, _⟩ => ⟨S64x32, .f32⟩
  | .hbm, ⟨46, _⟩ => ⟨S64x32x2, .f32⟩
  | .hbm, ⟨47, _⟩ => ⟨S_, .f32⟩
  | .hbm, ⟨48, _⟩ => ⟨S64x32, .f32⟩
  | .hbm, ⟨49, _⟩ => ⟨S_, .f32⟩
  | .hbm, ⟨50, _⟩ => ⟨S64x32, .f32⟩
  | .hbm, ⟨51, _⟩ => ⟨S64x32, .f32⟩
  | .hbm, ⟨52, _⟩ => ⟨S_, .f32⟩
  | .hbm, ⟨53, _⟩ => ⟨S64x32, .f32⟩
  | .hbm, ⟨54, _⟩ => ⟨S64x32, .f32⟩
  | .hbm, ⟨55, _⟩ => ⟨S64x32, .f32⟩
  | .hbm, ⟨56, _⟩ => ⟨S64x32, .f32⟩
  | .hbm, ⟨57, _⟩ => ⟨S64x16x2, .f32⟩
  | .hbm, ⟨58, _⟩ => ⟨S_, .f32⟩
  | .hbm, ⟨59, _⟩ => ⟨S64x16, .f32⟩
  | .hbm, ⟨60, _⟩ => ⟨S64x16x2, .f32⟩
  | .hbm, ⟨61, _⟩ => ⟨S_, .f32⟩
  | .hbm, ⟨62, _⟩ => ⟨S64x16, .f32⟩
  | .hbm, ⟨63, _⟩ => ⟨S_, .f32⟩
  | .hbm, ⟨64, _⟩ => ⟨S64x16, .f32⟩
  | .hbm, ⟨65, _⟩ => ⟨S64x16, .f32⟩
  | .hbm, ⟨66, _⟩ => ⟨S_, .f32⟩
  | .hbm, ⟨67, _⟩ => ⟨S64x16, .f32⟩
  | .hbm, ⟨68, _⟩ => ⟨S64x16, .f32⟩
  | .hbm, ⟨69, _⟩ => ⟨S64x16, .f32⟩
  | .hbm, ⟨70, _⟩ => ⟨S64x16, .f32⟩
  | .local _ .vmem, ⟨0, _⟩ => ⟨S8x128x56x56, .f32⟩
  | .local _ .vmem, ⟨1, _⟩ => ⟨S8x128x56x56, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_cst_13 : Ref sig .tc := ⟨.hbm, 49, rfl⟩
abbrev main_v33 : Ref sig .tc := ⟨.hbm, 50, rfl⟩
abbrev main_v34 : Ref sig .tc := ⟨.hbm, 51, rfl⟩
abbrev main_cst_14 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_15 : Ref sig .tc := ⟨.hbm, 58, rfl⟩
abbrev main_v40 : Ref sig .tc := ⟨.hbm, 59, rfl⟩
abbrev main_v41 : Ref sig .tc := ⟨.hbm, 60, rfl⟩
abbrev main_cst_16 : Ref sig .tc := ⟨.hbm, 61, rfl⟩
abbrev main_v42 : Ref sig .tc := ⟨.hbm, 62, rfl⟩
abbrev main_cst_17 : Ref sig .tc := ⟨.hbm, 63, rfl⟩
abbrev main_v43 : Ref sig .tc := ⟨.hbm, 64, rfl⟩
abbrev main_v44 : Ref sig .tc := ⟨.hbm, 65, rfl⟩
abbrev main_cst_18 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x128x56x56_S8x128x56x56_0_0_0_0 : ∀ a, (![0, 0, 0, 0] : Fin 4 → Nat) a + S8x128x56x56.size a ≤ S8x128x56x56.size a
  h_S8x128x56x56 : 0 < S8x128x56x56.numel
  reduces_S8x128x56x56_S8x128x56 : S8x128x56x56.Reduces [3] S8x128x56
  reduces_S8x128x56_S8x128 : S8x128x56.Reduces [2] S8x128
  inb_S8x128_S8x128_0_0 : ∀ a, (![0, 0] : Fin 2 → Nat) a + S8x128.size a ≤ S8x128.size a
  h_S8x128 : 0 < S8x128.numel
  reducesTo_S64x256_S256_d0 : S64x256.ReducesTo [0] S256
  h_S_ : 0 < S_.numel
  bcast_S_S256 : S_.BroadcastsInDim S256 (![] : Fin 0 → Fin S256.rank)
  shapeCasts_S64x256_S64x128x2 : S64x256.ShapeCasts S64x128x2
  reducesTo_S64x128x2_S64x128_d2 : S64x128x2.ReducesTo [2] S64x128
  bcast_S_S64x128 : S_.BroadcastsInDim S64x128 (![] : Fin 0 → Fin S64x128.rank)
  shapeCasts_S64x128_S64x64x2 : S64x128.ShapeCasts S64x64x2
  reducesTo_S64x64x2_S64x64_d2 : S64x64x2.ReducesTo [2] S64x64
  bcast_S_S64x64 : S_.BroadcastsInDim S64x64 (![] : Fin 0 → Fin S64x64.rank)
  shapeCasts_S64x64_S64x32x2 : S64x64.ShapeCasts S64x32x2
  reducesTo_S64x32x2_S64x32_d2 : S64x32x2.ReducesTo [2] S64x32
  bcast_S_S64x32 : S_.BroadcastsInDim S64x32 (![] : Fin 0 → Fin S64x32.rank)
  shapeCasts_S64x32_S64x16x2 : S64x32.ShapeCasts S64x16x2
  reducesTo_S64x16x2_S64x16_d2 : S64x16x2.ReducesTo [2] S64x16
  bcast_S_S64x16 : S_.BroadcastsInDim S64x16 (![] : Fin 0 → Fin S64x16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x56x56.size a ≤ S64x256x56x56.size a
  hwx0_0 : ∀ i : grid0.Coords, EltTy.bits .f32 = 32 ∨ (Rect.block (s := S64x256x56x56) S8x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x256.size a
  hwx0_1 : ∀ i : grid0.Coords, EltTy.bits .f32 = 32 ∨ (Rect.block (s := S64x256) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x256.size a
  hwx0_2 : ∀ i : grid0.Coords, EltTy.bits .f32 = 32 ∨ (Rect.block (s := S64x256) S8x128.size (cc0_transform_2 i) (hinb0_2 i)).WholeWords (EltTy.packing .f32)

variable [Facts₀]

abbrev win0_0 : Pipeline.Window sig grid0 :=
  Pipeline.Window.ofSpec (Memref.whole main_arg0) S8x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S_ : Shape := ⟨0, ![]⟩
abbrev S64x256 : Shape := ⟨2, ![64, 256]⟩
abbrev S256 : Shape := ⟨1, ![256]⟩
abbrev S64x128x2 : Shape := ⟨3, ![64, 128, 2]⟩
abbrev S64x128 : Shape := ⟨2, ![64, 128]⟩
abbrev S64x64x2 : Shape := ⟨3, ![64, 64, 2]⟩
abbrev S64x64 : Shape := ⟨2, ![64, 64]⟩
abbrev S64x32x2 : Shape := ⟨3, ![64, 32, 2]⟩
abbrev S64x32 : Shape := ⟨2, ![64, 32]⟩
abbrev S64x16x2 : Shape := ⟨3, ![64, 16, 2]⟩
abbrev S64x16 : Shape := ⟨2, ![64, 16]⟩

abbrev nBuf : Space → Nat
  | .hbm => 74
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S_, .f32⟩
  | .hbm, ⟨2, _⟩ => ⟨S64x256, .f32⟩
  | .hbm, ⟨3, _⟩ => ⟨S64x256x56x56, .f32⟩
  | .hbm, ⟨4, _⟩ => ⟨S_, .f32⟩
  | .hbm, ⟨5, _⟩ => ⟨S64x256, .f32⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S64x128x2, .f32⟩
  | .hbm, ⟨19, _⟩ => ⟨S_, .f32⟩
  | .hbm, ⟨20, _⟩ => ⟨S64x128, .f32⟩
  | .hbm, ⟨21, _⟩ => ⟨S64x128x2, .f32⟩
  | .hbm, ⟨22, _⟩ => ⟨S_, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S_, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x64x2, .f32⟩
  | .hbm, ⟨33, _⟩ => ⟨S_, .f32⟩
  | .hbm, ⟨34, _⟩ => ⟨S64x64, .f32⟩
  | .hbm, ⟨35, _⟩ => ⟨S64x64x2, .f32⟩
  | .hbm, ⟨36, _⟩ => ⟨S_, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x32x2, .f32⟩
  | .hbm, ⟨47, _⟩ => ⟨S_, .f32⟩
  | .hbm, ⟨48, _⟩ => ⟨S64x32, .f32⟩
  | .hbm, ⟨49, _⟩ => ⟨S64x32x2, .f32⟩
  | .hbm, ⟨50, _⟩ => ⟨S_, .f32⟩
  | .hbm, ⟨51, _⟩ => ⟨S64x32, .f32⟩
  | .hbm, ⟨52, _⟩ => ⟨S_, .f32⟩
  | .hbm, ⟨53, _⟩ => ⟨S64x32, .f32⟩
  | .hbm, ⟨54, _⟩ => ⟨S64x32, .f32⟩
  | .hbm, ⟨55, _⟩ => ⟨S_, .f32⟩
  | .hbm, ⟨56, _⟩ => ⟨S64x32, .f32⟩
  | .hbm, ⟨57, _⟩ => ⟨S64x32, .f32⟩
  | .hbm, ⟨58, _⟩ => ⟨S64x32, .f32⟩
  | .hbm, ⟨59, _⟩ => ⟨S64x32, .f32⟩
  | .hbm, ⟨60, _⟩ => ⟨S64x16x2, .f32⟩
  | .hbm, ⟨61, _⟩ => ⟨S_, .f32⟩
  | .hbm, ⟨62, _⟩ => ⟨S64x16, .f32⟩
  | .hbm, ⟨63, _⟩ => ⟨S64x16x2, .f32⟩
  | .hbm, ⟨64, _⟩ => ⟨S_, .f32⟩
  | .hbm, ⟨65, _⟩ => ⟨S64x16, .f32⟩
  | .hbm, ⟨66, _⟩ => ⟨S_, .f32⟩
  | .hbm, ⟨67, _⟩ => ⟨S64x16, .f32⟩
  | .hbm, ⟨68, _⟩ => ⟨S64x16, .f32⟩
  | .hbm, ⟨69, _⟩ => ⟨S_, .f32⟩
  | .hbm, ⟨70, _⟩ => ⟨S64x16, .f32⟩
  | .hbm, ⟨71, _⟩ => ⟨S64x16, .f32⟩
  | .hbm, ⟨72, _⟩ => ⟨S64x16, .f32⟩
  | .hbm, ⟨73, _⟩ => ⟨S64x16, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_cst_4 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_5 : Ref sig .tc := ⟨.hbm, 19, rfl⟩
abbrev main_v12 : Ref sig .tc := ⟨.hbm, 20, rfl⟩
abbrev main_v13 : Ref sig .tc := ⟨.hbm, 21, rfl⟩
abbrev main_cst_6 : Ref sig .tc := ⟨.hbm, 22, rfl⟩
abbrev main_v14 : Ref sig .tc := ⟨.hbm, 23, rfl⟩
abbrev main_cst_7 : Ref sig .tc := ⟨.hbm, 24, rfl⟩
abbrev main_v15 : Ref sig .tc := ⟨.hbm, 25, rfl⟩
abbrev main_v16 : Ref sig .tc := ⟨.hbm, 26, rfl⟩
abbrev main_cst_8 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_9 : Ref sig .tc := ⟨.hbm, 33, rfl⟩
abbrev main_v22 : Ref sig .tc := ⟨.hbm, 34, rfl⟩
abbrev main_v23 : Ref sig .tc := ⟨.hbm, 35, rfl⟩
abbrev main_cst_10 : Ref sig .tc := ⟨.hbm, 36, rfl⟩
abbrev main_v24 : Ref sig .tc := ⟨.hbm, 37, rfl⟩
abbrev main_cst_11 : Ref sig .tc := ⟨.hbm, 38, rfl⟩
abbrev main_v25 : Ref sig .tc := ⟨.hbm, 39, rfl⟩
abbrev main_v26 : Ref sig .tc := ⟨.hbm, 40, rfl⟩
abbrev main_cst_12 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_13 : Ref sig .tc := ⟨.hbm, 47, rfl⟩
abbrev main_v32 : Ref sig .tc := ⟨.hbm, 48, rfl⟩
abbrev main_v33 : Ref sig .tc := ⟨.hbm, 49, rfl⟩
abbrev main_cst_14 : Ref sig .tc := ⟨.hbm, 50, rfl⟩
abbrev main_v34 : Ref sig .tc := ⟨.hbm, 51, rfl⟩
abbrev main_cst_15 : Ref sig .tc := ⟨.hbm, 52, rfl⟩
abbrev main_v35 : Ref sig .tc := ⟨.hbm, 53, rfl⟩
abbrev main_v36 : Ref sig .tc := ⟨.hbm, 54, rfl⟩
abbrev main_cst_16 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_17 : Ref sig .tc := ⟨.hbm, 61, rfl⟩
abbrev main_v42 : Ref sig .tc := ⟨.hbm, 62, rfl⟩
abbrev main_v43 : Ref sig .tc := ⟨.hbm, 63, rfl⟩
abbrev main_cst_18 : Ref sig .tc := ⟨.hbm, 64, rfl⟩
abbrev main_v44 : Ref sig .tc := ⟨.hbm, 65, rfl⟩
abbrev main_cst_19 : Ref sig .tc := ⟨.hbm, 66, rfl⟩
abbrev main_v45 : Ref sig .tc := ⟨.hbm, 67, rfl⟩
abbrev main_v46 : Ref sig .tc := ⟨.hbm, 68, rfl⟩
abbrev main_cst_20 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  reducesTo_S64x256x56x56_S64x256_d2_3 : S64x256x56x56.ReducesTo [2, 3] S64x256
  h_S_ : 0 < S_.numel
  reducesTo_S64x256_S256_d0 : S64x256.ReducesTo [0] S256
  bcast_S_S256 : S_.BroadcastsInDim S256 (![] : Fin 0 → Fin S256.rank)
  shapeCasts_S64x256_S64x128x2 : S64x256.ShapeCasts S64x128x2
  reducesTo_S64x128x2_S64x128_d2 : S64x128x2.ReducesTo [2] S64x128
  bcast_S_S64x128 : S_.BroadcastsInDim S64x128 (![] : Fin 0 → Fin S64x128.rank)
  shapeCasts_S64x128_S64x64x2 : S64x128.ShapeCasts S64x64x2
  reducesTo_S64x64x2_S64x64_d2 : S64x64x2.ReducesTo [2] S64x64
  bcast_S_S64x64 : S_.BroadcastsInDim S64x64 (![] : Fin 0 → Fin S64x64.rank)
  shapeCasts_S64x64_S64x32x2 : S64x64.ShapeCasts S64x32x2
  reducesTo_S64x32x2_S64x32_d2 : S64x32x2.ReducesTo [2] S64x32
  bcast_S_S64x32 : S_.BroadcastsInDim S64x32 (![] : Fin 0 → Fin S64x32.rank)
  shapeCasts_S64x32_S64x16x2 : S64x32.ShapeCasts S64x16x2
  reducesTo_S64x16x2_S64x16_d2 : S64x16x2.ReducesTo [2] S64x16
  bcast_S_S64x16 : S_.BroadcastsInDim S64x16 (![] : Fin 0 → Fin S64x16.rank)

variable [Facts₀]

class Facts : Prop extends Facts₀ where

variable [Facts]
-- ==== Proof.FrameBits.lean ====
/-
  The frame of the statistics kernel's program: its @main is one pipelined region — a grid of 8 × 2 points,
  each reading one block x[8b..8b+8, 128c..128c+128, :, :] of the argument and writing one 8 × 128 block of each
  of the two result arrays — followed by 68 host lines that read the two results and write only buffers of
  their own.

  What each point leaves: the sums block is, entry by entry, the sum over the 56 rows of the sums over the 56
  lanes of the input block; the squares block the same of the block's squares. No point reads what another
  wrote, so the proof data name each output's staging contents as a function of the input block alone, and
  the region's invariant is the one that holds nothing of the kernel's own.

  The run: the region from the launch contents (no host line precedes it), then the host lines, none of which
  writes the argument or either result array; the argument array, an input the pipeline only reads, ends as it
  was launched.
-/
import proofs.«129600_j49847390437779_1_alg».proof.Proof.Gen.Kernel.Launch
import proofs.«129600_j49847390437779_1_alg».proof.Proof.Gen.Kernel.Skeleton
import proofs.«129600_j49847390437779_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core `c`'s buffers as the region finds them: the launch contents, no host line having run. -/
abbrev entryVal (c : Dev nD) : Valuation τ sig (Elt F) :=
  StableHlo.after (List.flatten ([] : List (List (HloOp τ sig (Elt F))))) (fun b => m (c, b))
/-- The same at a TensorCore buffer. -/
abbrev entryAt (c : Dev nD) (b : Ref sig .tc) : Buf (Elt F) ((c : Thread nD τ).loc b) := entryVal m c (Proc.devRef .tc b)

/-- The argument array is found as launched. -/
theorem entryAt_arg (c : Dev nD) : entryAt m c main_arg0 = m ((c : Thread nD τ).loc main_arg0) := rfl

/-- The program is its region continued by the 68 host lines. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] trivial trivial main_chain

/-- No host line allocates. -/
theorem tail_fresh : (hostOps1 : List (HloOp τ sig (Elt F))).Forall fun op => op.fresh = ∅ := by
  simp only [List.Forall]; repeat' constructor

/-- Every host line writes one buffer of its own, none of them the argument or a result array of the region. -/
theorem tail_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes,
    StableHlo.reshape_writes, Finset.mem_singleton]
  repeat' apply And.intro
  all_goals intro w; fin_cases w <;> exact StableHlo.devRef_ne_of_ne (by decide)

/-- The host lines touch only the region's arrays and the buffers that bypass it. -/
theorem lines_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

theorem lines_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp tail_fresh) op hop

theorem lines_keep : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  exact (List.forall_iff_forall_mem.mp tail_keeps) op hop

/-! ## The blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The whole input block and the whole output block, as the body's accesses address them. -/
abbrev wholeIn : Rect S8x128x56x56 := Rect.unit (s := S8x128x56x56) ![0, 0, 0, 0] S8x128x56x56.size Facts₀.inb_S8x128x56x56_S8x128x56x56_0_0_0_0
abbrev wholeOut : Rect S8x128 := Rect.unit (s := S8x128) ![0, 0] S8x128.size Facts₀.inb_S8x128_S8x128_0_0

/-- What the body leaves in the sums buffer: its one store, of the row sums of the lane sums of the block loaded. -/
def sumsLeft (x : Vec F S8x128x56x56 .f32) : Vec F S8x128 .f32 :=
  View.canon [⟨wholeOut, k0_pay1 (View.ld x wholeIn)⟩]
/-- What it leaves in the squares buffer: the same of the block's squares. -/
def squaresLeft (x : Vec F S8x128x56x56 .f32) : Vec F S8x128 .f32 :=
  View.canon [⟨wholeOut, k0_pay2 (View.ld x wholeIn)⟩]

/-- One store of the whole block covers the buffer. -/
theorem whole_covers (p : Vec F S8x128 .f32) (y : S8x128.Idx) :
    ∃ pc ∈ ([⟨wholeOut, p⟩] : List (View.Piece (Elt F) S8x128 .f32)), y ∈ pc.1.set :=
  View.cover_of_tiled [⟨wholeOut, p⟩] S8x128.size (by rfl) y

/-! ## The body -/

set_option maxHeartbeats 1000000 in
/-- The body on whole staging memrefs — the input's at `x`, the two outputs' at anything (it loads each before it
    stores over it, and uses neither value) — leaves the input's as it was and the outputs' at the sums and the
    squares of `x`. -/
theorem body_run (c : Dev nD) (E : Set ℕ) (i : grid0.Coords) (arg2 : Memref sig .tc .vmem S8x128x56x56 .f32) (harg2 : arg2.IsWhole)
    (arg3 : Memref sig .tc .vmem S8x128 .f32) (harg3 : arg3.IsWhole) (arg4 : Memref sig .tc .vmem S8x128 .f32) (harg4 : arg4.IsWhole)
    (x : Vec F S8x128x56x56 .f32) (K : PUnit → sProp 𝕄) :
    iprop(owns (c : Thread nD τ) arg2 fullShare x ∗ (∃ d, owns (c : Thread nD τ) arg3 fullShare d) ∗ (∃ d, owns (c : Thread nD τ) arg4 fullShare d)
        ∗ (iprop(owns (c : Thread nD τ) arg2 fullShare x ∗ owns (c : Thread nD τ) arg3 fullShare (sumsLeft x)
            ∗ owns (c : Thread nD τ) arg4 fullShare (squaresLeft x)) -∗ K ⟨⟩))
      ⊢ wp frame (wpE (defs₀ (F := F)) Variants.none c none) E (cc0__stats_kernel i arg2 harg2 arg3 harg3 arg4 harg4) K := by
  simp only [cc0__stats_kernel_eq_skeleton]; unfold cc0__stats_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (whole_covers _)
  iexists _; isplitr
  swap; · iexact H2
  ipureintro
  exact View.read_writes_eq_canon _ _ _ (whole_covers _)

/-! ## The proof data -/

/-- The arrays as the region finds them; after the body at point `t` the input's buffer at its block, the two
    outputs' at the sums and squares of that block; nothing of the kernel's own held, nothing owed. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => sumsLeft (blockAt m c 0 t)
    | ⟨2, _⟩ => squaresLeft (blockAt m c 0 t)
  Φ _ := Pipeline.ΦA spec0 c
  q _ := fullShare
  owed _ := 0

theorem dats_A (c : Dev nD) (w : Fin cfg0.W) : (dats m 0 c).A w = entryAt m c (Pipeline.arrRef spec0 w) := by
  dsimp only [dats]

theorem after_in (c : Dev nD) (t : Fin cfg0.N) : (dats m 0 c).after 0 t = blockAt m c 0 t := by dsimp only [dats]
theorem after_sums (c : Dev nD) (t : Fin cfg0.N) : (dats m 0 c).after 1 t = sumsLeft (blockAt m c 0 t) := by dsimp only [dats]
theorem after_squares (c : Dev nD) (t : Fin cfg0.N) : (dats m 0 c).after 2 t = squaresLeft (blockAt m c 0 t) := by dsimp only [dats]

/-- The input's current staging buffer holds its block at every point: it is fetched at every point, and the body
    leaves it in place. -/
theorem before_in (c : Dev nD) (t : Fin cfg0.N) (d) : (dats m 0 c).before 0 t d = blockAt m c 0 t :=
  ((dats m 0 c).before_in_eq_fetched 0 rfl (fun _ => rfl) (fun _ _ _ => rfl)
      (fun t => by rw [after_in]; unfold Dat.blockOf blockAt; rw [dats_A]; try rfl) t d).trans
    (by unfold Dat.fetched Dat.blockOf blockAt; rw [dats_A]; try rfl)

/-! ## The body obligation -/

theorem body_at (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t))) := by
  unfold bodyAt0
  simp only [before_in]
  rw [show (dats m 0 c).Φ t.succ = (dats m 0 c).Φ t.castSucc from rfl,
    show (dats m 0 c).owesAt () t.succ = (dats m 0 c).owesAt () t.castSucc from rfl,
    after_in, after_sums, after_squares]
  iintro ⟨HΦ, Ho, ⟨%d0, H0⟩, ⟨%d1, H1⟩, ⟨%d2, H2⟩⟩
  iapply (body_run c Set.univ (grid0.coords t) _ _ _ _ _ _ (blockAt m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of the program terminates, the region's arrays ending at what the proof data compute
    and every other buffer at what the host lines leave. -/
theorem run_main : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := lines_within) (hfresh := lines_fresh) (hkeep := lines_keep)
    (hmain := main_around m Variants.none) (hA := dats_A m) (hΦ := fun _ _ => rfl)

/-- The argument array is the pipeline's input window: it ends at its entry contents, the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).1 0).trans (((dats m 0 c).arrAt_in 0 rfl _).trans (dats_A m c 0))) (run_main m ρ)

end Cert.Kernel.Stats

end
-- ==== Proof.FrameIdeal.lean ====
/-
  The frame of the statistics kernel's program: its @main is one pipelined region — a grid of 8 × 2 points,
  each reading one block x[8b..8b+8, 128c..128c+128, :, :] of the argument and writing one 8 × 128 block of each
  of the two result arrays — followed by 68 host lines that read the two results and write only buffers of
  their own.

  What each point leaves: the sums block is, entry by entry, the sum over the 56 rows of the sums over the 56
  lanes of the input block; the squares block the same of the block's squares. No point reads what another
  wrote, so the proof data name each output's staging contents as a function of the input block alone, and
  the region's invariant is the one that holds nothing of the kernel's own.

  The run: the region from the launch contents (no host line precedes it), then the host lines, none of which
  writes the argument or either result array; the argument array, an input the pipeline only reads, ends as it
  was launched.
-/
import proofs.«129600_j49847390437779_1_alg».proof.Proof.Gen.KernelIdeal.Launch
import proofs.«129600_j49847390437779_1_alg».proof.Proof.Gen.KernelIdeal.Skeleton
import proofs.«129600_j49847390437779_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Core `c`'s buffers as the region finds them: the launch contents, no host line having run. -/
abbrev entryVal (c : Dev nD) : Valuation τ sig (Elt F) :=
  StableHlo.after (List.flatten ([] : List (List (HloOp τ sig (Elt F))))) (fun b => m (c, b))
/-- The same at a TensorCore buffer. -/
abbrev entryAt (c : Dev nD) (b : Ref sig .tc) : Buf (Elt F) ((c : Thread nD τ).loc b) := entryVal m c (Proc.devRef .tc b)

/-- The argument array is found as launched. -/
theorem entryAt_arg (c : Dev nD) : entryAt m c main_arg0 = m ((c : Thread nD τ).loc main_arg0) := rfl

/-- The program is its region continued by the 68 host lines. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] trivial trivial main_chain

/-- No host line allocates. -/
theorem tail_fresh : (hostOps1 : List (HloOp τ sig (Elt F))).Forall fun op => op.fresh = ∅ := by
  simp only [List.Forall]; repeat' constructor

/-- Every host line writes one buffer of its own, none of them the argument or a result array of the region. -/
theorem tail_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes,
    StableHlo.reshape_writes, Finset.mem_singleton]
  repeat' apply And.intro
  all_goals intro w; fin_cases w <;> exact StableHlo.devRef_ne_of_ne (by decide)

/-- The host lines touch only the region's arrays and the buffers that bypass it. -/
theorem lines_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

theorem lines_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp tail_fresh) op hop

theorem lines_keep : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  exact (List.forall_iff_forall_mem.mp tail_keeps) op hop

/-! ## The blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The whole input block and the whole output block, as the body's accesses address them. -/
abbrev wholeIn : Rect S8x128x56x56 := Rect.unit (s := S8x128x56x56) ![0, 0, 0, 0] S8x128x56x56.size Facts₀.inb_S8x128x56x56_S8x128x56x56_0_0_0_0
abbrev wholeOut : Rect S8x128 := Rect.unit (s := S8x128) ![0, 0] S8x128.size Facts₀.inb_S8x128_S8x128_0_0

/-- What the body leaves in the sums buffer: its one store, of the row sums of the lane sums of the block loaded. -/
def sumsLeft (x : Vec F S8x128x56x56 .f32) : Vec F S8x128 .f32 :=
  View.canon [⟨wholeOut, k0_pay1 (View.ld x wholeIn)⟩]
/-- What it leaves in the squares buffer: the same of the block's squares. -/
def squaresLeft (x : Vec F S8x128x56x56 .f32) : Vec F S8x128 .f32 :=
  View.canon [⟨wholeOut, k0_pay2 (View.ld x wholeIn)⟩]

/-- One store of the whole block covers the buffer. -/
theorem whole_covers (p : Vec F S8x128 .f32) (y : S8x128.Idx) :
    ∃ pc ∈ ([⟨wholeOut, p⟩] : List (View.Piece (Elt F) S8x128 .f32)), y ∈ pc.1.set :=
  View.cover_of_tiled [⟨wholeOut, p⟩] S8x128.size (by rfl) y

/-! ## The body -/

set_option maxHeartbeats 1000000 in
/-- The body on whole staging memrefs — the input's at `x`, the two outputs' at anything (it loads each before it
    stores over it, and uses neither value) — leaves the input's as it was and the outputs' at the sums and the
    squares of `x`. -/
theorem body_run (c : Dev nD) (E : Set ℕ) (i : grid0.Coords) (arg2 : Memref sig .tc .vmem S8x128x56x56 .f32) (harg2 : arg2.IsWhole)
    (arg3 : Memref sig .tc .vmem S8x128 .f32) (harg3 : arg3.IsWhole) (arg4 : Memref sig .tc .vmem S8x128 .f32) (harg4 : arg4.IsWhole)
    (x : Vec F S8x128x56x56 .f32) (K : PUnit → sProp 𝕄) :
    iprop(owns (c : Thread nD τ) arg2 fullShare x ∗ (∃ d, owns (c : Thread nD τ) arg3 fullShare d) ∗ (∃ d, owns (c : Thread nD τ) arg4 fullShare d)
        ∗ (iprop(owns (c : Thread nD τ) arg2 fullShare x ∗ owns (c : Thread nD τ) arg3 fullShare (sumsLeft x)
            ∗ owns (c : Thread nD τ) arg4 fullShare (squaresLeft x)) -∗ K ⟨⟩))
      ⊢ wp frame (wpE (defs₀ (F := F)) Variants.none c none) E (cc0__stats_kernel i arg2 harg2 arg3 harg3 arg4 harg4) K := by
  simp only [cc0__stats_kernel_eq_skeleton]; unfold cc0__stats_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (whole_covers _)
  iexists _; isplitr
  swap; · iexact H2
  ipureintro
  exact View.read_writes_eq_canon _ _ _ (whole_covers _)

/-! ## The proof data -/

/-- The arrays as the region finds them; after the body at point `t` the input's buffer at its block, the two
    outputs' at the sums and squares of that block; nothing of the kernel's own held, nothing owed. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => sumsLeft (blockAt m c 0 t)
    | ⟨2, _⟩ => squaresLeft (blockAt m c 0 t)
  Φ _ := Pipeline.ΦA spec0 c
  q _ := fullShare
  owed _ := 0

theorem dats_A (c : Dev nD) (w : Fin cfg0.W) : (dats m 0 c).A w = entryAt m c (Pipeline.arrRef spec0 w) := by
  dsimp only [dats]

theorem after_in (c : Dev nD) (t : Fin cfg0.N) : (dats m 0 c).after 0 t = blockAt m c 0 t := by dsimp only [dats]
theorem after_sums (c : Dev nD) (t : Fin cfg0.N) : (dats m 0 c).after 1 t = sumsLeft (blockAt m c 0 t) := by dsimp only [dats]
theorem after_squares (c : Dev nD) (t : Fin cfg0.N) : (dats m 0 c).after 2 t = squaresLeft (blockAt m c 0 t) := by dsimp only [dats]

/-- The input's current staging buffer holds its block at every point: it is fetched at every point, and the body
    leaves it in place. -/
theorem before_in (c : Dev nD) (t : Fin cfg0.N) (d) : (dats m 0 c).before 0 t d = blockAt m c 0 t :=
  ((dats m 0 c).before_in_eq_fetched 0 rfl (fun _ => rfl) (fun _ _ _ => rfl)
      (fun t => by rw [after_in]; unfold Dat.blockOf blockAt; rw [dats_A]; try rfl) t d).trans
    (by unfold Dat.fetched Dat.blockOf blockAt; rw [dats_A]; try rfl)

/-! ## The body obligation -/

theorem body_at (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t))) := by
  unfold bodyAt0
  simp only [before_in]
  rw [show (dats m 0 c).Φ t.succ = (dats m 0 c).Φ t.castSucc from rfl,
    show (dats m 0 c).owesAt () t.succ = (dats m 0 c).owesAt () t.castSucc from rfl,
    after_in, after_sums, after_squares]
  iintro ⟨HΦ, Ho, ⟨%d0, H0⟩, ⟨%d1, H1⟩, ⟨%d2, H2⟩⟩
  iapply (body_run c Set.univ (grid0.coords t) _ _ _ _ _ _ (blockAt m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of the program terminates, the region's arrays ending at what the proof data compute
    and every other buffer at what the host lines leave. -/
theorem run_main : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := lines_within) (hfresh := lines_fresh) (hkeep := lines_keep)
    (hmain := main_around m Variants.none) (hA := dats_A m) (hΦ := fun _ _ => rfl)

/-- The argument array is the pipeline's input window: it ends at its entry contents, the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).1 0).trans (((dats m 0 c).arrAt_in 0 rfl _).trans (dats_A m c 0))) (run_main m ρ)

end Cert.KernelIdeal.Stats

end
-- ==== Proof.PlaneSums.lean ====
/-
  Sums over the two trailing axes of a rank-4 array, read at an index of the rank-2 result.

  The reference sums an array x[b, c, h, w] over (h, w) in one reduction: at (b, c) its value is the initial value
  plus the sum of x over the fibre { i | i drops to (b, c) }. That fibre is the image of (h, w) ↦ (b, c, h, w), so
  the sum is the double sum over h and w (`fibre_sum`, `hostSum_apply`).

  The kernel sums a block first over its lanes w, then over its rows h: at (p, q) the value is the sum over h of
  the sums over w of the block at (p, q, h, w) (`rowsOfLanes_apply`) — the same double sum, which is why no law
  beyond the commutative monoid of the extended reals is needed to join the two.
-/
import Idealize.ShloMosaic.PureOps.Ideal.Laws
import Idealize.ShloMosaic.Lib.ValueIdx

noncomputable section

namespace Cert.PlaneSums

open Idealize.ShloMosaic Idealize.ShloMosaic.ValueIdx

/-- The sum of `x` over the plane (h, w) at the leading coordinates (b, c). -/
def planeSum {B C H W : Nat} {M : Type} [AddCommMonoid M] (x : (⟨4, ![B, C, H, W]⟩ : Shape).Idx → M) (b : Fin B) (c : Fin C) : M :=
  ∑ h : Fin H, ∑ w : Fin W, x (ix4 b c h w)

/-- The fibre of (b, c) under dropping the two trailing axes is the plane over (b, c): at the argument's shape. -/
theorem fibre_sum {M : Type} [AddCommMonoid M]
    (hr : (⟨4, ![64, 256, 56, 56]⟩ : Shape).ReducesTo [2, 3] ⟨2, ![64, 256]⟩)
    (x : (⟨4, ![64, 256, 56, 56]⟩ : Shape).Idx → M) (b : Fin 64) (c : Fin 256) :
    ∑ i ∈ Finset.univ.filter (fun i => hr.drop i = ix2 b c), x i = planeSum x b c := by
  unfold planeSum
  rw [← Fintype.sum_prod_type' (f := fun (h : Fin 56) (w : Fin 56) => x (ix4 b c h w))]
  symm
  refine Finset.sum_nbij' (fun p => ix4 b c p.1 p.2) (fun i => ((i 2 : Fin 56), (i 3 : Fin 56))) ?_ ?_ ?_ ?_ ?_
  · intro p _
    refine Finset.mem_filter.mpr ⟨Finset.mem_univ _, funext fun a => Fin.ext ?_⟩
    match a with
    | ⟨0, _⟩ => exact hr.drop_apply_val_of_eq _ ⟨0, by decide⟩ 0 (by decide) (by decide)
    | ⟨1, _⟩ => exact hr.drop_apply_val_of_eq _ ⟨1, by decide⟩ 1 (by decide) (by decide)
  · intro i _; exact Finset.mem_univ _
  · intro p _; rfl
  · intro i hi
    have hd := (Finset.mem_filter.mp hi).2
    have h0 : (i 0).val = b.val :=
      (hr.drop_apply_val_of_eq i ⟨0, by decide⟩ 0 (by decide) (by decide)).symm.trans (congrArg (fun j => (j ⟨0, by decide⟩ : Fin _).val) hd)
    have h1 : (i 1).val = c.val :=
      (hr.drop_apply_val_of_eq i ⟨1, by decide⟩ 1 (by decide) (by decide)).symm.trans (congrArg (fun j => (j ⟨1, by decide⟩ : Fin _).val) hd)
    funext a
    match a with
    | ⟨0, _⟩ => exact Fin.ext h0.symm
    | ⟨1, _⟩ => exact Fin.ext h1.symm
    | ⟨2, _⟩ => rfl
    | ⟨3, _⟩ => rfl
  · intro p _; rfl

/-- The host's sum over the two trailing axes, at (b, c): the initial value plus the plane's sum. -/
theorem hostSum_apply
    (hr : (⟨4, ![64, 256, 56, 56]⟩ : Shape).ReducesTo [2, 3] ⟨2, ![64, 256]⟩)
    (x : (⟨4, ![64, 256, 56, 56]⟩ : Shape).Idx → EReal) (init : EReal) (b : Fin 64) (c : Fin 256) :
    Ideal.hostReduceAdd hr x init (ix2 b c) = init + planeSum x b c := by
  unfold Ideal.hostReduceAdd
  exact congrArg (init + ·) (fibre_sum hr x b c)

/-- A lane sum followed by a row sum of a rank-4 block, at (p, q): the plane's sum. -/
theorem rowsOfLanes_apply {B C H W : Nat} (v : FVec Ideal ⟨4, ![B, C, H, W]⟩ .f32)
    (h3 : (⟨4, ![B, C, H, W]⟩ : Shape).Reduces [3] ⟨3, ![B, C, H]⟩) (h2 : (⟨3, ![B, C, H]⟩ : Shape).Reduces [2] ⟨2, ![B, C]⟩)
    (hφ : FKind.Formats .f32) (hacc : (0x00000000#32 : BitVec 32) = FKind.add.neutral .f32 hφ) (p : Fin B) (q : Fin C) :
    multiReduction .add [2] ⟨2, ![B, C]⟩ (multiReduction .add [3] ⟨3, ![B, C, H]⟩ v 0x00000000#32 h3 hφ hacc) 0x00000000#32 h2 hφ hacc (ix2 p q)
      = planeSum v p q := by
  refine (Ideal.multiReduction_add_single _ _ h2 hφ hacc (ix2 p q)).trans ?_
  unfold planeSum
  refine Finset.sum_congr rfl fun k _ => ?_
  refine (Ideal.multiReduction_add_single v _ h3 hφ hacc _).trans ?_
  refine Finset.sum_congr rfl fun l _ => congrArg v ?_
  funext a
  match a with
  | ⟨0, _⟩ => rfl
  | ⟨1, _⟩ => rfl
  | ⟨2, _⟩ => rfl
  | ⟨3, _⟩ => rfl

end Cert.PlaneSums

end
-- ==== Proof.KernelValue.lean ====
/-
  What the statistics kernel's two result arrays hold after the region, over the extended reals.

  Grid point t = (i, j) reads the block x[8i..8i+8, 128j..128j+128, :, :] and writes, into block (i, j) of each
  result, at (p, q): the sum over the 56 rows h of the sums over the 56 lanes w of the block at (p, q, h, w) —
  of the block itself for the sums array, of its squares for the squares array. The block's entry (p, q, h, w)
  is the argument's entry (8i + p, 128j + q, h, w), so what point t writes back is block t of ONE array-wide
  function: the plane sum of x (of x·x) at (b, c), which is also what a single reduction over the two trailing
  axes from a zero initial value computes. The 16 blocks tile the 64 × 256 result, so the arrays end at that
  function everywhere.
-/
import proofs.«129600_j49847390437779_1_alg».proof.Proof.FrameIdeal
import proofs.«129600_j49847390437779_1_alg».proof.Proof.PlaneSums
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.StatsValue

open Idealize.ShloMosaic Idealize.ShloMosaic.TcCoe Idealize.SL.Sem Idealize.ShloMosaic.ValueIdx
open Idealize.ShloMosaic.Pipeline (Dat)
open Cert.KernelIdeal.Gen Cert.KernelIdeal.Stats Cert.PlaneSums

variable (m : (ℓ : Loc nD τ sig) → Buf (Elt Ideal) ℓ)

/-! ## The array-wide functions -/

theorem twoTrailing : S64x256x56x56.ReducesTo [2, 3] S64x256 := by decide

/-- The plane sums of `x`, as one reduction over the two trailing axes from a zero initial value. -/
def planeSums (x : FVec Ideal S64x256x56x56 .f32) : FVec Ideal S64x256 .f32 :=
  Host.reduceAdd (F := Ideal) x (constant (F := Ideal) S_ .f32 0x00000000#32) twoTrailing Facts₀.h_S_

/-- The plane sums of the squares of `x`. -/
def planeSquares (x : FVec Ideal S64x256x56x56 .f32) : FVec Ideal S64x256 .f32 :=
  Host.reduceAdd (F := Ideal) (mulf x x) (constant (F := Ideal) S_ .f32 0x00000000#32) twoTrailing Facts₀.h_S_

theorem planeSums_apply (x : FVec Ideal S64x256x56x56 .f32) (b : Fin 64) (c : Fin 256) :
    planeSums x (ix2 b c) = planeSum x b c := by
  unfold planeSums
  refine (hostReduceAdd_apply x _ twoTrailing Facts₀.h_S_ (ix2 b c)).trans ?_
  refine (hostSum_apply twoTrailing x _ b c).trans ?_
  rw [constant_apply, Ideal.ofBits_zero_f32, zero_add]

theorem planeSquares_apply (x : FVec Ideal S64x256x56x56 .f32) (b : Fin 64) (c : Fin 256) :
    planeSquares x (ix2 b c) = planeSum (mulf x x) b c := by
  unfold planeSquares
  refine (hostReduceAdd_apply (mulf x x) _ twoTrailing Facts₀.h_S_ (ix2 b c)).trans ?_
  refine (hostSum_apply twoTrailing (mulf x x) _ b c).trans ?_
  rw [constant_apply, Ideal.ofBits_zero_f32, zero_add]

/-! ## What the body leaves, at an index -/

theorem zeros2 : (![0, 0] : Fin 2 → Nat) = fun _ => 0 := funext fun a => by fin_cases a <;> rfl
theorem zeros4 : (![0, 0, 0, 0] : Fin 4 → Nat) = fun _ => 0 := funext fun a => by fin_cases a <;> rfl

theorem sumsLeft_apply (x : FVec Ideal S8x128x56x56 .f32) (p : Fin 8) (q : Fin 128) :
    sumsLeft (F := Ideal) x (ix2 p q) = planeSum x p q := by
  unfold sumsLeft
  rw [View.canon_unit_zero zeros2]
  simp only [View.ld_unit_zero (S := S8x128x56x56) zeros4]
  unfold k0_pay1
  exact rowsOfLanes_apply x _ _ _ _ p q

theorem squaresLeft_apply (x : FVec Ideal S8x128x56x56 .f32) (p : Fin 8) (q : Fin 128) :
    squaresLeft (F := Ideal) x (ix2 p q) = planeSum (mulf x x) p q := by
  unfold squaresLeft
  rw [View.canon_unit_zero zeros2]
  simp only [View.ld_unit_zero (S := S8x128x56x56) zeros4]
  unfold k0_pay2
  exact rowsOfLanes_apply (mulf x x) _ _ _ _ p q

/-- Two plane sums agree when the planes agree entry by entry. -/
theorem planeSum_congr {B C B' C' H W : Nat} {x : (⟨4, ![B, C, H, W]⟩ : Shape).Idx → EReal} {X : (⟨4, ![B', C', H, W]⟩ : Shape).Idx → EReal}
    (p : Fin B) (q : Fin C) (b : Fin B') (c : Fin C') (h : ∀ k l, x (ix4 p q k l) = X (ix4 b c k l)) :
    planeSum x p q = planeSum X b c :=
  Finset.sum_congr rfl fun k _ => Finset.sum_congr rfl fun l _ => h k l

/-! ## The block indices, decided over the grid -/

/-- At every point the input's block index is the outputs' on the two leading axes and zero on the two trailing
    ones, the two outputs move together, and the block indices stay in the 8 × 2 box. -/
theorem index_facts : ∀ t : Fin cfg0.N,
    win0_0.index t (0 : Fin 4) = win0_1.index t (0 : Fin 2) ∧ win0_0.index t (1 : Fin 4) = win0_1.index t (1 : Fin 2)
    ∧ win0_0.index t (2 : Fin 4) = 0 ∧ win0_0.index t (3 : Fin 4) = 0
    ∧ win0_2.index t (0 : Fin 2) = win0_1.index t (0 : Fin 2) ∧ win0_2.index t (1 : Fin 2) = win0_1.index t (1 : Fin 2)
    ∧ win0_1.index t (0 : Fin 2) ≤ 7 ∧ win0_1.index t (1 : Fin 2) ≤ 1 :=
  (by decide +kernel : ∀ t : Fin grid0.N, _)

/-- Every block of the 8 × 2 box is some point's. -/
theorem index_onto1 : ∀ (q0 : Fin 8) (q1 : Fin 2), ∃ t : Fin cfg0.N, win0_1.index t = ![q0.val, q1.val] :=
  (by decide +kernel : ∀ (q0 : Fin 8) (q1 : Fin 2), ∃ t : Fin grid0.N, win0_1.index t = ![q0.val, q1.val])
theorem index_onto2 : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-! ## What each point writes back -/

/-- The argument array as the region finds it. -/
abbrev xArr (c : Dev nD) : FVec Ideal S64x256x56x56 .f32 := entryAt m c main_arg0
/-- The input block at point `t`. -/
abbrev xBlock (c : Dev nD) (t : Fin cfg0.N) : FVec Ideal S8x128x56x56 .f32 := blockAt m c 0 t

/-- The block's entry (p, q, h, w) is the argument's entry (8i + p, 128j + q, h, w). -/
theorem xBlock_apply (c : Dev nD) (t : Fin cfg0.N) (p : Fin 8) (q : Fin 128) (k l : Fin 56)
    (hb : win0_1.index t (0 : Fin 2) * 8 + p.val < 64) (hc : win0_1.index t (1 : Fin 2) * 128 + q.val < 256) :
    xBlock m c t (ix4 p q k l) = xArr m c (ix4 (⟨_, hb⟩ : Fin 64) (⟨_, hc⟩ : Fin 256) k l) := by
  obtain ⟨e0, e1, e2, e3, -, -, -, -⟩ := index_facts t
  show xArr m c (((cfg0.win 0).blk t).view.emb (ix4 p q k l)) = _
  refine congrArg (xArr m c) (funext fun a => Fin.ext ?_)
  match a with
  | ⟨0, _⟩ => show win0_0.index t (0 : Fin 4) * 8 + 1 * p.val = win0_1.index t (0 : Fin 2) * 8 + p.val; omega
  | ⟨1, _⟩ => show win0_0.index t (1 : Fin 4) * 128 + 1 * q.val = win0_1.index t (1 : Fin 2) * 128 + q.val; omega
  | ⟨2, _⟩ => show win0_0.index t (2 : Fin 4) * 56 + 1 * k.val = k.val; omega
  | ⟨3, _⟩ => show win0_0.index t (3 : Fin 4) * 56 + 1 * l.val = l.val; omega

/-- WHAT POINT `t` WRITES BACK into the sums array is block `t` of the plane sums of the argument. -/
theorem flushed_sums (c : Dev nD) (t : Fin cfg0.N) :
    (dats m 0 c).flushed 1 t = ((cfg0.win 1).blk t).view.read (Elt Ideal) (planeSums (xArr m c)) := by
  show (cfg0.win 1).cut (grid0.coords t) ((dats m 0 c).after 1 t) = _
  rw [after_sums]
  obtain ⟨-, -, -, -, -, -, b0, b1⟩ := index_facts t
  refine funext fun (y : S8x128.Idx) => ?_
  obtain ⟨p, q, rfl⟩ : ∃ (p : Fin 8) (q : Fin 128), y = ix2 p q := ⟨y 0, y 1, eq_ix2 y⟩
  have hb : win0_1.index t (0 : Fin 2) * 8 + p.val < 64 := by have := p.isLt; omega
  have hc : win0_1.index t (1 : Fin 2) * 128 + q.val < 256 := by have := q.isLt; omega
  have hemb : ((cfg0.win 1).blk t).view.emb (ix2 p q) = ix2 (⟨_, hb⟩ : Fin 64) (⟨_, hc⟩ : Fin 256) := by
    funext a; apply Fin.ext
    match a with
    | ⟨0, _⟩ => show win0_1.index t (0 : Fin 2) * 8 + 1 * p.val = win0_1.index t (0 : Fin 2) * 8 + p.val; omega
    | ⟨1, _⟩ => show win0_1.index t (1 : Fin 2) * 128 + 1 * q.val = win0_1.index t (1 : Fin 2) * 128 + q.val; omega
  show sumsLeft (F := Ideal) (xBlock m c t) (ix2 p q) = planeSums (xArr m c) (((cfg0.win 1).blk t).view.emb (ix2 p q))
  rw [hemb]
  refine (sumsLeft_apply (xBlock m c t) p q).trans ?_
  refine (planeSum_congr p q _ _ fun k l => xBlock_apply m c t p q k l hb hc).trans ?_
  exact (planeSums_apply (xArr m c) _ _).symm

/-- WHAT POINT `t` WRITES BACK into the squares array is block `t` of the plane sums of the argument's squares. -/
theorem flushed_squares (c : Dev nD) (t : Fin cfg0.N) :
    (dats m 0 c).flushed 2 t = ((cfg0.win 2).blk t).view.read (Elt Ideal) (planeSquares (xArr m c)) := by
  show (cfg0.win 2).cut (grid0.coords t) ((dats m 0 c).after 2 t) = _
  rw [after_squares]
  obtain ⟨-, -, -, -, e4, e5, b0, b1⟩ := index_facts t
  refine funext fun (y : S8x128.Idx) => ?_
  obtain ⟨p, q, rfl⟩ : ∃ (p : Fin 8) (q : Fin 128), y = ix2 p q := ⟨y 0, y 1, eq_ix2 y⟩
  have hb : win0_1.index t (0 : Fin 2) * 8 + p.val < 64 := by have := p.isLt; omega
  have hc : win0_1.index t (1 : Fin 2) * 128 + q.val < 256 := by have := q.isLt; omega
  have hemb : ((cfg0.win 2).blk t).view.emb (ix2 p q) = ix2 (⟨_, hb⟩ : Fin 64) (⟨_, hc⟩ : Fin 256) := by
    funext a; apply Fin.ext
    match a with
    | ⟨0, _⟩ => show win0_2.index t (0 : Fin 2) * 8 + 1 * p.val = win0_1.index t (0 : Fin 2) * 8 + p.val; omega
    | ⟨1, _⟩ => show win0_2.index t (1 : Fin 2) * 128 + 1 * q.val = win0_1.index t (1 : Fin 2) * 128 + q.val; omega
  show squaresLeft (F := Ideal) (xBlock m c t) (ix2 p q) = planeSquares (xArr m c) (((cfg0.win 2).blk t).view.emb (ix2 p q))
  rw [hemb]
  refine (squaresLeft_apply (xBlock m c t) p q).trans ?_
  refine (planeSum_congr (X := mulf (xArr m c) (xArr m c)) p q (⟨_, hb⟩ : Fin 64) (⟨_, hc⟩ : Fin 256) fun k l => ?_).trans ?_
  · exact congrArg (fun z => z * z) (xBlock_apply m c t p q k l hb hc)
  exact (planeSquares_apply (xArr m c) _ _).symm

/-! ## The blocks tile the results -/

theorem mem_block1 (t : Fin cfg0.N) (i : S64x256.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0_0).slice (win0_1.rect t)).set ↔ _
  rw [View.set_slice_whole, Rect.mem_set_unit]
  exact Iff.rfl

theorem mem_block2 (t : Fin cfg0.N) (i : S64x256.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_1).slice (win0_2.rect t)).set ↔ _
  rw [View.set_slice_whole, Rect.mem_set_unit]
  exact Iff.rfl

/-- Entry (b, c) lies in the block of the point whose block index is (b / 8, c / 128). -/
theorem covered1 (i : S64x256.Idx) : ∃ t : Fin cfg0.N, (cfg0.win 1).flush t = true ∧ i ∈ ((cfg0.win 1).blk t).view.set := by
  have hi0 : (i 0).val < 64 := (i 0).isLt
  have hi1 : (i 1).val < 256 := (i 1).isLt
  obtain ⟨t, ht⟩ := index_onto1 ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_block1]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

theorem covered2 (i : S64x256.Idx) : ∃ t : Fin cfg0.N, (cfg0.win 2).flush t = true ∧ i ∈ ((cfg0.win 2).blk t).view.set := by
  have hi0 : (i 0).val < 64 := (i 0).isLt
  have hi1 : (i 1).val < 256 := (i 1).isLt
  obtain ⟨t, ht⟩ := index_onto2 ⟨(i 0).val / 8, by omega⟩ ⟨(i 1).val / 128, by omega⟩
  have q0 : win0_2.index t (0 : Fin 2) = (i 0).val / 8 := congrFun ht 0
  have q1 : win0_2.index t (1 : Fin 2) = (i 1).val / 128 := congrFun ht 1
  refine ⟨t, flush0_2 t, ?_⟩
  rw [mem_block2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-! ## The arrays after the region -/

theorem final_sums (c : Dev nD) : (dats m 0 c).arrAt 1 cfg0.N = planeSums (xArr m c) :=
  (dats m 0 c).arrAt_eq_of_cover 1 (planeSums (xArr m c)) (fun t _ => flushed_sums m c t) covered1

theorem final_squares (c : Dev nD) : (dats m 0 c).arrAt 2 cfg0.N = planeSquares (xArr m c) :=
  (dats m 0 c).arrAt_eq_of_cover 2 (planeSquares (xArr m c)) (fun t _ => flushed_squares m c t) covered2

end Cert.KernelIdeal.StatsValue

end
-- ==== Proof.Bridge.lean ====
/-
  The two programs compute the same ten statistics.

  After the region the kernel program's two result arrays hold the plane sums of the argument and of its squares
  — exactly the values the reference's first two reductions compute — and from there both programs apply the
  same host lines: a sum over the batch axis and four rounds of pairwise sums of adjacent channels, each divided
  by its count, and the variance as the mean of squares less the square of the mean. So each of the kernel
  program's results, read off the host lines from the region's exit contents, is the reference's corresponding
  stage of the argument array: no law of the extended reals is used beyond the regrouping of the plane sum.
-/
import proofs.«129600_j49847390437779_1_alg».proof.Proof.KernelValue
import proofs.«129600_j49847390437779_1_alg».proof.Proof.Gen.ReferenceIdeal.Run
import proofs.«129600_j49847390437779_1_alg».proof.Proof.Gen.ReferenceIdeal.Read
import Idealize.ShloMosaic.Lib.StableHlo.Run

set_option maxRecDepth 16384

noncomputable section

namespace Cert.KernelIdeal.StatsBridge

open Idealize.ShloMosaic Idealize.ShloMosaic.TcCoe Idealize.SL.Sem Idealize.ShloMosaic.StableHlo
open Idealize.ShloMosaic.Pipeline (Dat)
open Cert.KernelIdeal.Gen Cert.KernelIdeal.Stats Cert.KernelIdeal.StatsValue

variable (m : (ℓ : Loc nD τ sig) → Buf (Elt Ideal) ℓ) (ρ : Dev nD → PrngReg)

/-- Core `c`'s buffers at the region's exit: the region's arrays at what the proof data compute, every other
    buffer as launched. -/
def exitVal (c : Dev nD) : Valuation τ sig (Elt Ideal) :=
  Pipeline.withArrays (cfgs 0).spec c (entryVal m c) fun w => (dats m 0 c).arrAt w (cfgs 0).N

/-- What a buffer holds after the host lines. -/
def tailAt (c : Dev nD) (b : Ref sig .tc) : Buf (Elt Ideal) ((c.tc : Thread nD τ).loc b) :=
  Pipeline.afterTail₀ cfgs (dats m) 0 (entryVal m) [hostOps1] c b

/-- At the region's exit the sums array holds the plane sums of the argument, -/
theorem exit_sums (c : Dev nD) : exitVal m c (Proc.devRef .tc main_v0_0) = planeSums (xArr m c) :=
  (Pipeline.withArrays_arr spec0 launch0.win.arr_inj c _ _ 1).trans (final_sums m c)

/-- and the squares array the plane sums of its squares. -/
theorem exit_squares (c : Dev nD) : exitVal m c (Proc.devRef .tc main_v0_1) = planeSquares (xArr m c) :=
  (Pipeline.withArrays_arr spec0 launch0.win.arr_inj c _ _ 2).trans (final_squares m c)

/-- The kernel program's result `main_v3` is the reference's stage `val_main_v5` of the argument. -/
theorem tail_main_v3 (c : Dev nD) : tailAt m c main_v3 = Cert.ReferenceIdeal.Read.val_main_v5 (F := Ideal) (xArr m c) := by
  unfold tailAt Pipeline.afterTail₀
  show StableHlo.after hostOps1 (exitVal m c) (Proc.devRef .tc main_v3) = _
  after_results_simp
  rw [exit_sums]
  rfl

/-- The kernel program's result `main_v8` is the reference's stage `val_main_v10` of the argument. -/
theorem tail_main_v8 (c : Dev nD) : tailAt m c main_v8 = Cert.ReferenceIdeal.Read.val_main_v10 (F := Ideal) (xArr m c) := by
  unfold tailAt Pipeline.afterTail₀
  show StableHlo.after hostOps1 (exitVal m c) (Proc.devRef .tc main_v8) = _
  after_results_simp
  rw [exit_sums, exit_squares]
  rfl

/-- The kernel program's result `main_v14` is the reference's stage `val_main_v16` of the argument. -/
theorem tail_main_v14 (c : Dev nD) : tailAt m c main_v14 = Cert.ReferenceIdeal.Read.val_main_v16 (F := Ideal) (xArr m c) := by
  unfold tailAt Pipeline.afterTail₀
  show StableHlo.after hostOps1 (exitVal m c) (Proc.devRef .tc main_v14) = _
  after_results_simp
  rw [exit_sums]
  rfl

/-- The kernel program's result `main_v18` is the reference's stage `val_main_v20` of the argument. -/
theorem tail_main_v18 (c : Dev nD) : tailAt m c main_v18 = Cert.ReferenceIdeal.Read.val_main_v20 (F := Ideal) (xArr m c) := by
  unfold tailAt Pipeline.afterTail₀
  show StableHlo.after hostOps1 (exitVal m c) (Proc.devRef .tc main_v18) = _
  after_results_simp
  rw [exit_sums, exit_squares]
  rfl

/-- The kernel program's result `main_v24` is the reference's stage `val_main_v26` of the argument. -/
theorem tail_main_v24 (c : Dev nD) : tailAt m c main_v24 = Cert.ReferenceIdeal.Read.val_main_v26 (F := Ideal) (xArr m c) := by
  unfold tailAt Pipeline.afterTail₀
  show StableHlo.after hostOps1 (exitVal m c) (Proc.devRef .tc main_v24) = _
  after_results_simp
  rw [exit_sums]
  rfl

/-- The kernel program's result `main_v28` is the reference's stage `val_main_v30` of the argument. -/
theorem tail_main_v28 (c : Dev nD) : tailAt m c main_v28 = Cert.ReferenceIdeal.Read.val_main_v30 (F := Ideal) (xArr m c) := by
  unfold tailAt Pipeline.afterTail₀
  show StableHlo.after hostOps1 (exitVal m c) (Proc.devRef .tc main_v28) = _
  after_results_simp
  rw [exit_sums, exit_squares]
  rfl

/-- The kernel program's result `main_v34` is the reference's stage `val_main_v36` of the argument. -/
theorem tail_main_v34 (c : Dev nD) : tailAt m c main_v34 = Cert.ReferenceIdeal.Read.val_main_v36 (F := Ideal) (xArr m c) := by
  unfold tailAt Pipeline.afterTail₀
  show StableHlo.after hostOps1 (exitVal m c) (Proc.devRef .tc main_v34) = _
  after_results_simp
  rw [exit_sums]
  rfl

/-- The kernel program's result `main_v38` is the reference's stage `val_main_v40` of the argument. -/
theorem tail_main_v38 (c : Dev nD) : tailAt m c main_v38 = Cert.ReferenceIdeal.Read.val_main_v40 (F := Ideal) (xArr m c) := by
  unfold tailAt Pipeline.afterTail₀
  show StableHlo.after hostOps1 (exitVal m c) (Proc.devRef .tc main_v38) = _
  after_results_simp
  rw [exit_sums, exit_squares]
  rfl

/-- The kernel program's result `main_v44` is the reference's stage `val_main_v46` of the argument. -/
theorem tail_main_v44 (c : Dev nD) : tailAt m c main_v44 = Cert.ReferenceIdeal.Read.val_main_v46 (F := Ideal) (xArr m c) := by
  unfold tailAt Pipeline.afterTail₀
  show StableHlo.after hostOps1 (exitVal m c) (Proc.devRef .tc main_v44) = _
  after_results_simp
  rw [exit_sums]
  rfl

/-- The kernel program's result `main_v48` is the reference's stage `val_main_v50` of the argument. -/
theorem tail_main_v48 (c : Dev nD) : tailAt m c main_v48 = Cert.ReferenceIdeal.Read.val_main_v50 (F := Ideal) (xArr m c) := by
  unfold tailAt Pipeline.afterTail₀
  show StableHlo.after hostOps1 (exitVal m c) (Proc.devRef .tc main_v48) = _
  after_results_simp
  rw [exit_sums, exit_squares]
  rfl

/-- The kernel program's run, read: the argument unchanged and each result at what the host lines leave. -/
theorem run_results : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v3) = tailAt m c main_v3
      ∧ r.2.mem ((c.tc : Thread nD τ).loc main_v8) = tailAt m c main_v8
      ∧ r.2.mem ((c.tc : Thread nD τ).loc main_v14) = tailAt m c main_v14
      ∧ r.2.mem ((c.tc : Thread nD τ).loc main_v18) = tailAt m c main_v18
      ∧ r.2.mem ((c.tc : Thread nD τ).loc main_v24) = tailAt m c main_v24
      ∧ r.2.mem ((c.tc : Thread nD τ).loc main_v28) = tailAt m c main_v28
      ∧ r.2.mem ((c.tc : Thread nD τ).loc main_v34) = tailAt m c main_v34
      ∧ r.2.mem ((c.tc : Thread nD τ).loc main_v38) = tailAt m c main_v38
      ∧ r.2.mem ((c.tc : Thread nD τ).loc main_v44) = tailAt m c main_v44
      ∧ r.2.mem ((c.tc : Thread nD τ).loc main_v48) = tailAt m c main_v48
      ∧ r.2.mem ((c.tc : Thread nD τ).loc main_arg0) = m ((c.tc : Thread nD τ).loc main_arg0) :=
  (θ_run defs _ _).mono (fun _ h c =>
    have harg : _ = m ((c.tc : Thread nD τ).loc main_arg0) :=
      ((h c).1 0).trans (((dats m 0 c).arrAt_in 0 rfl _).trans (dats_A m c 0))
    ⟨harg,
      ((h c).2 main_v3 (Pipeline.mem_restRefs_of main_v3 (by decide) (by decide))),
      ((h c).2 main_v8 (Pipeline.mem_restRefs_of main_v8 (by decide) (by decide))),
      ((h c).2 main_v14 (Pipeline.mem_restRefs_of main_v14 (by decide) (by decide))),
      ((h c).2 main_v18 (Pipeline.mem_restRefs_of main_v18 (by decide) (by decide))),
      ((h c).2 main_v24 (Pipeline.mem_restRefs_of main_v24 (by decide) (by decide))),
      ((h c).2 main_v28 (Pipeline.mem_restRefs_of main_v28 (by decide) (by decide))),
      ((h c).2 main_v34 (Pipeline.mem_restRefs_of main_v34 (by decide) (by decide))),
      ((h c).2 main_v38 (Pipeline.mem_restRefs_of main_v38 (by decide) (by decide))),
      ((h c).2 main_v44 (Pipeline.mem_restRefs_of main_v44 (by decide) (by decide))),
      ((h c).2 main_v48 (Pipeline.mem_restRefs_of main_v48 (by decide) (by decide))),
      harg⟩) (run_main (F := Ideal) m ρ)

end Cert.KernelIdeal.StatsBridge

end
-- ==== Proof.lean ====
/-
  The certificate of the statistics kernel against its jnp reference, over the extended reals.

  The kernel makes one pass over x[64, 256, 56, 56]: each of its 8 × 2 grid points sums one 8 × 128 × 56 × 56 block
  over its lanes and then over its rows, and the same of the block's squares, into one 8 × 128 block of each of two
  result arrays. The reference sums x and x·x over the two trailing axes in one reduction each. Entry (b, c) of
  either is the sum of the plane x[b, c, :, :] (of its squares) — a sum regrouped, equal in any commutative monoid, so
  the precondition is never opened. Both programs then apply the same host lines to those two arrays, so their ten
  statistics agree, and the argument array, which the pipeline only reads and no host line writes, ends as launched.

  The three frames: the two kernel programs' from their region's run continued by the host lines (Proof/FrameBits,
  Proof/FrameIdeal); the reference's from its run. The idealization rewrote nothing, so `preserves` asks nothing.
-/
import proofs.«129600_j49847390437779_1_alg».proof.Defs
import proofs.«129600_j49847390437779_1_alg».proof.Proof.FrameBits
import proofs.«129600_j49847390437779_1_alg».proof.Proof.FrameIdeal
import proofs.«129600_j49847390437779_1_alg».proof.Proof.Bridge
import proofs.«129600_j49847390437779_1_alg».proof.Proof.Gen.Kernel
import proofs.«129600_j49847390437779_1_alg».proof.Proof.Gen.KernelIdeal
import proofs.«129600_j49847390437779_1_alg».proof.Proof.Gen.ReferenceIdeal
import proofs.«129600_j49847390437779_1_alg».proof.Proof.Gen.ReferenceIdeal.Run
import proofs.«129600_j49847390437779_1_alg».proof.Proof.Gen.ReferenceIdeal.Read
import proofs.«129600_j49847390437779_1_alg».proof.Proof.Gen.Pre_finite_inputs
import Idealize.ShloMosaic.Adequacy
import Idealize.ShloMosaic.Init

noncomputable section

namespace Cert.Proof

open Idealize.ShloMosaic Idealize.SL.Sem
open Cert.KernelIdeal.StatsBridge Cert.KernelIdeal.StatsValue

theorem frame_kernel : Cert.frame_Kernel := fun m ρ _ => Cert.Kernel.Stats.frame m ρ

theorem frame_kernelIdeal : Cert.frame_KernelIdeal := fun m ρ _ => Cert.KernelIdeal.Stats.frame m ρ

/-- The reference has no kernel: its frame is its run with the results dropped. -/
theorem frame_reference : Cert.frame_ReferenceIdeal := fun m ρ _ =>
  (θ_run Cert.ReferenceIdeal.defs _ _).mono (fun _ h c => (h c).1) (Cert.ReferenceIdeal.Value.run (F := Ideal) m ρ)

/-- Both runs end at the kernel program's results: the kernel program's by its run, the reference's because each of
    its results is the stage of the argument that the kernel program's host lines compute from the plane sums. -/
theorem algebraic : Cert.algebraic_KernelIdeal_ReferenceIdeal := by
  intro m ρ m' ρ' _ hagree
  refine ⟨_, _, _, _, _, _, _, _, _, _, _, run_results m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11⟩ := h c
  exact ⟨h0.trans (hagree c),
    h1.trans ((Cert.ReferenceIdeal.Read.val_main_v5_eq _).trans ((congrArg (Cert.ReferenceIdeal.Read.val_main_v5 (F := Ideal)) (hagree c)).trans (tail_main_v3 m c).symm)),
    h2.trans ((Cert.ReferenceIdeal.Read.val_main_v10_eq _).trans ((congrArg (Cert.ReferenceIdeal.Read.val_main_v10 (F := Ideal)) (hagree c)).trans (tail_main_v8 m c).symm)),
    h3.trans ((Cert.ReferenceIdeal.Read.val_main_v16_eq _).trans ((congrArg (Cert.ReferenceIdeal.Read.val_main_v16 (F := Ideal)) (hagree c)).trans (tail_main_v14 m c).symm)),
    h4.trans ((Cert.ReferenceIdeal.Read.val_main_v20_eq _).trans ((congrArg (Cert.ReferenceIdeal.Read.val_main_v20 (F := Ideal)) (hagree c)).trans (tail_main_v18 m c).symm)),
    h5.trans ((Cert.ReferenceIdeal.Read.val_main_v26_eq _).trans ((congrArg (Cert.ReferenceIdeal.Read.val_main_v26 (F := Ideal)) (hagree c)).trans (tail_main_v24 m c).symm)),
    h6.trans ((Cert.ReferenceIdeal.Read.val_main_v30_eq _).trans ((congrArg (Cert.ReferenceIdeal.Read.val_main_v30 (F := Ideal)) (hagree c)).trans (tail_main_v28 m c).symm)),
    h7.trans ((Cert.ReferenceIdeal.Read.val_main_v36_eq _).trans ((congrArg (Cert.ReferenceIdeal.Read.val_main_v36 (F := Ideal)) (hagree c)).trans (tail_main_v34 m c).symm)),
    h8.trans ((Cert.ReferenceIdeal.Read.val_main_v40_eq _).trans ((congrArg (Cert.ReferenceIdeal.Read.val_main_v40 (F := Ideal)) (hagree c)).trans (tail_main_v38 m c).symm)),
    h9.trans ((Cert.ReferenceIdeal.Read.val_main_v46_eq _).trans ((congrArg (Cert.ReferenceIdeal.Read.val_main_v46 (F := Ideal)) (hagree c)).trans (tail_main_v44 m c).symm)),
    h10.trans ((Cert.ReferenceIdeal.Read.val_main_v50_eq _).trans ((congrArg (Cert.ReferenceIdeal.Read.val_main_v50 (F := Ideal)) (hagree c)).trans (tail_main_v48 m c).symm)),
    h11⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
